-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S1x8192 .f32) (main_arg1 : FVec F S1x8192 .f32) (main_arg2 : FVec F S8192x8192 .f32) (main_arg3 : FVec F S8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S1x8192 : Shape := ⟨2, ![1, 8192]⟩
abbrev S8192x8192 : Shape := ⟨2, ![8192, 8192]⟩
abbrev S8192 : Shape := ⟨1, ![8192]⟩
abbrev S8192x1 : Shape := ⟨2, ![8192, 1]⟩
abbrev S256x1 : Shape := ⟨2, ![256, 1]⟩
abbrev S256x2048 : Shape := ⟨2, ![256, 2048]⟩
abbrev S1x2048 : Shape := ⟨2, ![1, 2048]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S8192x8192, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S1x8192, .f32⟩
  | .hbm, ⟨7, _⟩ => ⟨S1x8192, .f32⟩
  | .hbm, ⟨8, _⟩ => ⟨S1x8192, .f32⟩
  | .local _ .vmem, ⟨0, _⟩ => ⟨S256x1, .f32⟩
  | .local _ .vmem, ⟨1, _⟩ => ⟨S256x1, .f32⟩
  | .local _ .vmem, ⟨2, _⟩ => ⟨S256x1, .f32⟩
  | .local _ .vmem, ⟨3, _⟩ => ⟨S256x1, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v38 : BitVec 1 := Scalar.cmpi .eq arg1 c31_i32
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S1x8192_S8192x1 : S1x8192.ShapeCasts S8192x1
  shapeCasts_S8192_S1x8192 : S8192.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  reduces_S256x2048_S2048 : S256x2048.Reduces [0] S2048
  shapeCasts_S2048_S1x2048 : S2048.ShapeCasts S1x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x8192.size a
  hwx0_2 : ∀ i : grid0.Coords, EltTy.bits .f32 = 32 ∨ (Rect.block (s := S8192x8192) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)

variable [Facts₀]

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x8192 : Shape := ⟨2, ![1, 8192]⟩
abbrev S8192x8192 : Shape := ⟨2, ![8192, 8192]⟩
abbrev S8192 : Shape := ⟨1, ![8192]⟩
abbrev S_ : Shape := ⟨0, ![]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S8192x8192, .f32⟩
  | .hbm, ⟨3, _⟩ => ⟨S8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x1, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S1x8192, .f32⟩
  | .hbm, ⟨38, _⟩ => ⟨S1x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  transposes_S1x8192_S8192x1_1_0 : S1x8192.Transposes [1, 0] S8192x1
  bcast_S8192x1_S8192x8192_0_1 : S8192x1.BroadcastsInDim S8192x8192 (![0, 1] : Fin 2 → Fin S8192x8192.rank)
  reducesTo_S8192x8192_S8192_d0 : S8192x8192.ReducesTo [0] S8192
  h_S_ : 0 < S_.numel
  bcast_S8192_S1x8192_1 : S8192.BroadcastsInDim S1x8192 (![1] : Fin 1 → Fin S1x8192.rank)

variable [Facts₀]

class Facts : Prop extends Facts₀ where

variable [Facts]
-- ==== Proof.Pieces.lean ====
/-
  What one run of the kernel body leaves in its two accumulators and, at a last step, in its two result blocks, as
  values of what it found there.

  At the first step of a column block (case A) the body zeroes both accumulators and then adds the step's column sums
  to them; at a middle step (case B) it adds them to what the step before left; at the last step (case C) it does the
  same and then stores accumulator plus bias row into each result block.  Every store covers its whole buffer, so
  each buffer ends holding the value of its last store, with every load read at the buffer's current contents.
-/
import proofs.«169212_j46265387713121_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body starts at the origin of its buffer. -/
theorem hz : (![0, 0] : Fin 2 → Nat) = fun _ => 0 := funext fun a => by fin_cases a <;> rfl

/-- First step, lower accumulator: the step's sums added to the zero row. -/
theorem lower_A (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : cond0_0 i) (hc1 : ¬cond0_1 i) (x0 : Vec F S256x1 .f32) (x1 : Vec F S256x1 .f32) (x2 : Vec F S256x2048 .f32) (x3 : Vec F S1x2048 .f32) :
    sout0_A_0 c i arg2 harg2 arg3 harg3 arg4 harg4 arg5 harg5 arg6 harg6 arg7 harg7 arg8 harg8 arg9 harg9 hc0 hc1 x0 x1 x2 x3 = k0_pay10 x2 x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- First step, upper accumulator. -/
theorem upper_A (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : cond0_0 i) (hc1 : ¬cond0_1 i) (x0 : Vec F S256x1 .f32) (x1 : Vec F S256x1 .f32) (x2 : Vec F S256x2048 .f32) (x3 : Vec F S1x2048 .f32) :
    sout0_A_1 c i arg2 harg2 arg3 harg3 arg4 harg4 arg5 harg5 arg6 harg6 arg7 harg7 arg8 harg8 arg9 harg9 hc0 hc1 x0 x1 x2 x3 = k0_pay1 (k0_pay11 x2 x0 x1 (k0_pay5 (F := F))) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Middle step, lower accumulator: the step's sums added to what it held. -/
theorem lower_B (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : ¬cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    sout0_B_0 c i arg2 harg2 arg3 harg3 arg4 harg4 arg5 harg5 arg6 harg6 arg7 harg7 arg8 harg8 arg9 harg9 hc0 hc1 x0 x1 x2 x3 xs0 xs1 = k0_pay10 x2 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Middle step, upper accumulator. -/
theorem upper_B (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : ¬cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    sout0_B_1 c i arg2 harg2 arg3 harg3 arg4 harg4 arg5 harg5 arg6 harg6 arg7 harg7 arg8 harg8 arg9 harg9 hc0 hc1 x0 x1 x2 x3 xs0 xs1 = k0_pay1 (k0_pay11 x2 x0 x1 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Last step, lower accumulator. -/
theorem lower_C (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    sout0_C_0 c i arg2 harg2 arg3 harg3 arg4 harg4 arg5 harg5 arg6 harg6 arg7 harg7 arg8 harg8 arg9 harg9 hc0 hc1 x0 x1 x2 x3 xs0 xs1 = k0_pay10 x2 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Last step, upper accumulator. -/
theorem upper_C (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    sout0_C_1 c i arg2 harg2 arg3 harg3 arg4 harg4 arg5 harg5 arg6 harg6 arg7 harg7 arg8 harg8 arg9 harg9 hc0 hc1 x0 x1 x2 x3 xs0 xs1 = k0_pay1 (k0_pay11 x2 x0 x1 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Last step, lower result block: the new lower accumulator plus the bias row. -/
theorem lowerOut_C (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    out0_C_4 c i arg2 harg2 arg3 harg3 arg4 harg4 arg5 harg5 arg6 harg6 arg7 harg7 arg8 harg8 arg9 harg9 hc0 hc1 x0 x1 x2 x3 xs0 xs1 = k0_pay2 (k0_pay10 x2 x0 x1 xs0) x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

/-- Last step, upper result block. -/
theorem upperOut_C (c : Dev nD) (i : grid0.Coords) (arg2 : Memref sig .tc .vmem S256x1 .f32) (harg2 : arg2.IsWhole) (arg3 : Memref sig .tc .vmem S256x1 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole) (hc0 : ¬cond0_0 i) (hc1 : cond0_1 i) (x0 : Vec F S256x1 .f32) (x1 : Vec F S256x1 .f32) (x2 : Vec F S256x2048 .f32) (x3 : Vec F S1x2048 .f32) (xs0 : Vec F S1x2048 .f32) (xs1 : Vec F S1x2048 .f32) :
    out0_C_5 c i arg2 harg2 arg3 harg3 arg4 harg4 arg5 harg5 arg6 harg6 arg7 harg7 arg8 harg8 arg9 harg9 hc0 hc1 x0 x1 x2 x3 xs0 xs1 = k0_pay3 (k0_pay1 (k0_pay11 x2 x0 x1 xs1)) x3 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S256x2048) hz, View.ld_unit_zero (S := S256x1) hz, View.ld_unit_zero (S := S1x2048) hz,
    View.readCov_unit_zero (S := S1x2048) _ hz]

end Cert.KernelIdeal.Pieces

end
-- ==== Proof.LibAxisSum.lean ====
/-
  The row sums and the column sums of a matrix, read at an entry (a general lemma: nothing here depends on a program).

  At the ideal values an add-reduction of an [A, K] matrix over its axis 1 holds at p the sum over k < K of the
  matrix at (p, k), and an add-reduction of a [K, C] matrix over its axis 0 holds at q the sum over k < K of the
  matrix at (k, q): the reduced index with the summed coordinate put back on its axis.
-/
import Idealize.ShloMosaic.Lib.ValueIdx
import Idealize.ShloMosaic.PureOps.Ideal.Laws

noncomputable section

open scoped BigOperators

namespace Cert.Lib.AxisSum

open Idealize.ShloMosaic Idealize.ShloMosaic.ValueIdx

/-- The sum along each row: the reduction over axis 1, at p, is the sum over the row's K entries. -/
theorem rowSum_apply {φ : FTy} {A K : Nat} (src : FVec Ideal ⟨2, ![A, K]⟩ φ) (acc : BitVec φ.bits)
    (h : (⟨2, ![A, K]⟩ : Shape).Reduces [1] ⟨1, ![A]⟩) (hφ : FKind.Formats φ) (hacc : acc = FKind.add.neutral φ hφ)
    (p : Fin A) :
    multiReduction .add [1] ⟨1, ![A]⟩ src acc h hφ hacc (ix1 p) = ∑ k : Fin K, (src (ix2 p k) : EReal) := by
  rw [Ideal.multiReduction_add_single]
  refine Finset.sum_congr rfl fun k _ => congrArg src ?_
  funext a
  match a with
  | ⟨0, _⟩ => rfl
  | ⟨1, _⟩ => rfl

/-- The sum down each column: the reduction over axis 0, at q, is the sum over the column's K entries. -/
theorem colSum_apply {φ : FTy} {K C : Nat} (src : FVec Ideal ⟨2, ![K, C]⟩ φ) (acc : BitVec φ.bits)
    (h : (⟨2, ![K, C]⟩ : Shape).Reduces [0] ⟨1, ![C]⟩) (hφ : FKind.Formats φ) (hacc : acc = FKind.add.neutral φ hφ)
    (q : Fin C) :
    multiReduction .add [0] ⟨1, ![C]⟩ src acc h hφ hacc (ix1 q) = ∑ k : Fin K, (src (ix2 k q) : EReal) := by
  rw [Ideal.multiReduction_add_single]
  refine Finset.sum_congr rfl fun k _ => congrArg src ?_
  funext a
  match a with
  | ⟨0, _⟩ => rfl
  | ⟨1, _⟩ => rfl

end Cert.Lib.AxisSum

end
-- ==== Proof.LibLayoutCol.lean ====
/-
  A column vector broadcast along the columns, read at an entry (a general lemma: nothing here depends on a program).

  A vector of A entries, shape-cast to one column [A, 1] and broadcast to B columns [A, B], holds at (p, q) the
  vector's entry p: the row-major position of (p, 0) in [A, 1] is p, and a broadcast reads a unit axis at 0.
-/
import Idealize.ShloMosaic.Lib.ValueIdx
import Idealize.ShloMosaic.Lib.Pipeline.Value

noncomputable section

namespace Cert.Lib.LayoutCol

open Idealize.ShloMosaic Idealize.ShloMosaic.ValueIdx

/-- The one column [A, 1] of a vector, at (p, 0), is the vector at p. -/
theorem colCast_apply {α : Type} {A : Nat} (v : (⟨1, ![A]⟩ : Shape).Idx → α)
    (h1 : (⟨1, ![A]⟩ : Shape).ShapeCasts ⟨2, ![A, 1]⟩) (p : Fin A) (z : Fin 1) :
    shapeCast ⟨2, ![A, 1]⟩ v h1 (ix2 p z) = v (ix1 p) := by
  refine shapeCast_apply v h1 (ix2 p z) (ix1 p) ?_
  rw [Shape.rowMajor_val_one, Shape.rowMajor_val_two]
  show p.val = p.val * 1 + z.val
  have := z.isLt
  omega

/-- The column broadcast to B columns, at (p, q), is the vector at p. -/
theorem bcastCol_apply {α : Type} {A B : Nat} (v : (⟨1, ![A]⟩ : Shape).Idx → α)
    (h1 : (⟨1, ![A]⟩ : Shape).ShapeCasts ⟨2, ![A, 1]⟩) (h2 : (⟨2, ![A, 1]⟩ : Shape).Broadcasts ⟨2, ![A, B]⟩)
    (p : Fin A) (q : Fin B) :
    broadcastTo ⟨2, ![A, B]⟩ (shapeCast ⟨2, ![A, 1]⟩ v h1) h2 (ix2 p q) = v (ix1 p) := by
  refine (broadcastTo_apply (shapeCast ⟨2, ![A, 1]⟩ v h1) h2 (ix2 p q) (ix2 p (0 : Fin 1)) ?_).trans
    (colCast_apply v h1 p 0)
  intro a
  match a with
  | ⟨0, _⟩ =>
    show p.val = if A = 1 then 0 else p.val
    split
    · have := p.isLt; omega
    · rfl
  | ⟨1, _⟩ => simp

end Cert.Lib.LayoutCol

end
-- ==== Proof.LibColSum.lean ====
/-
  Row sums kept as a column, read at an entry (a general lemma: nothing here depends on a program).

  A column [A, 1] broadcast to B columns holds at (p, q) the column's entry p.  The sums along the rows of an [A, K]
  matrix, laid out as a column [A, 1], hold at (p, 0) the sum over k < K of the matrix at (p, k): the form a kernel
  gives a sum over the last axis that keeps that axis with extent one.  The accumulator fact is stated as the
  equation of two zero words, the form in which a printed reduction carries it.
-/
import proofs.«169212_j46265387713121_1_alg».proof.Proof.LibLayoutCol
import proofs.«169212_j46265387713121_1_alg».proof.Proof.LibAxisSum
import Idealize.ShloMosaic.Lib.ValueIdx
import Idealize.ShloMosaic.Lib.Pipeline.Value
import Idealize.ShloMosaic.PureOps.Ideal.Laws

noncomputable section

open scoped BigOperators

namespace Cert.Lib.ColSum

open Idealize.ShloMosaic Idealize.ShloMosaic.ValueIdx

/-- A column [A, 1] broadcast to B columns, at (p, q), is the column at p. -/
theorem bcastColMat_apply {α : Type} {A B : Nat} (c : (⟨2, ![A, 1]⟩ : Shape).Idx → α)
    (h : (⟨2, ![A, 1]⟩ : Shape).Broadcasts ⟨2, ![A, B]⟩) (p : Fin A) (q : Fin B) :
    broadcastTo ⟨2, ![A, B]⟩ c h (ix2 p q) = c (ix2 p (0 : Fin 1)) := by
  refine broadcastTo_apply c h (ix2 p q) (ix2 p (0 : Fin 1)) ?_
  intro a
  match a with
  | ⟨0, _⟩ =>
    show p.val = if A = 1 then 0 else p.val
    split
    · have := p.isLt; omega
    · rfl
  | ⟨1, _⟩ => simp

/-- The sums along the rows of a matrix, laid out as a column: at (p, 0) the sum of row p. -/
theorem rowSumCol_apply {A K : Nat} (src : FVec Ideal ⟨2, ![A, K]⟩ .f32)
    (h : (⟨2, ![A, K]⟩ : Shape).Reduces [1] ⟨1, ![A]⟩) (hφ : FKind.Formats .f32) (hacc : (0x00000000#32 : BitVec 32) = 0x00000000#32)
    (hc : (⟨1, ![A]⟩ : Shape).ShapeCasts ⟨2, ![A, 1]⟩) (p : Fin A) (z : Fin 1) :
    shapeCast ⟨2, ![A, 1]⟩ (multiReduction .add [1] ⟨1, ![A]⟩ src 0x00000000#32 h hφ hacc) hc (ix2 p z)
      = ∑ k : Fin K, (src (ix2 p k) : EReal) := by
  exact (Cert.Lib.LayoutCol.colCast_apply _ hc p z).trans (Cert.Lib.AxisSum.rowSum_apply src 0x00000000#32 h hφ hacc p)

end Cert.Lib.ColSum

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.Payloads.lean ====
/-
  The kernel body's arithmetic at the exact values, read at one entry.

  One grid step takes a block w of 256 rows and 2048 columns of the weights and the matching 256 entries a, c of the
  two bound vectors (as columns), and adds to each running row-accumulator, at column q, the sum over the block's rows r of
      a(r) max(w(r,q), 0) - c(r) max(0 - w(r,q), 0),
  for the lower bound with (a, c) = (l, u) and for the upper bound with (a, c) = (u, l).  The last step adds the bias row.
-/
import proofs.«169212_j46265387713121_1_alg».proof.Proof.Gen.KernelIdeal.Skeleton
import proofs.«169212_j46265387713121_1_alg».proof.Proof.LibAxisSum
import proofs.«169212_j46265387713121_1_alg».proof.Proof.LibColSum
import proofs.«169212_j46265387713121_1_alg».proof.Proof.LibLayout
import Idealize.ShloMosaic.Lib.ValueIdx
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- What row r of a block contributes at column q: a(r) times the weight's positive part less c(r) times its negative part. -/
def rowTerm (a c : Vec Ideal S256x1 .f32) (w : Vec Ideal S256x2048 .f32) (r : Fin 256) (q : Fin 2048) : EReal :=
  a (ix2 r 0) * max (w (ix2 r q)) 0 - c (ix2 r 0) * max (0 - w (ix2 r q)) 0

/-- The positive part of the weights, at an entry. -/
theorem posPart_apply (w : Vec Ideal S256x2048 .f32) (r : Fin 256) (q : Fin 2048) :
    k0_pay6 (F := Ideal) w (ix2 r q) = max (w (ix2 r q)) 0 := by
  unfold k0_pay6
  show max (w (ix2 r q)) (Ideal.ofBits .f32 0x00000000#32) = _
  rw [Ideal.ofBits_zero_f32]

/-- The negative part of the weights (the positive part of 0 - w), at an entry. -/
theorem negPart_apply (w : Vec Ideal S256x2048 .f32) (r : Fin 256) (q : Fin 2048) :
    k0_pay7 (F := Ideal) w (ix2 r q) = max (0 - w (ix2 r q)) 0 := by
  unfold k0_pay7
  show max (Ideal.ofBits .f32 0x00000000#32 - w (ix2 r q)) (Ideal.ofBits .f32 0x00000000#32) = _
  rw [Ideal.ofBits_zero_f32]

/-- The column sums of a block: the reduction over the rows, at column q, is the sum over the 256 rows.  (The
    accumulator fact is taken in the form the program carries it: an equation between two zero words.) -/
theorem colSums_apply (src : FVec Ideal S256x2048 .f32) (hφ : FKind.Formats .f32)
    (hacc : (0x00000000#32 : BitVec 32) = 0x00000000#32) (q : Fin 2048) :
    multiReduction .add [0] S2048 src 0x00000000#32 reduces_S256x2048_S2048 hφ hacc (ix1 q) = ∑ r : Fin 256, (src (ix2 r q) : EReal) :=
  Cert.Lib.AxisSum.colSum_apply src 0x00000000#32 reduces_S256x2048_S2048 hφ hacc q

/-- The lower accumulator after one step: what it held plus the block's column sums of the row terms. -/
theorem lowerStep_apply (w : Vec Ideal S256x2048 .f32) (a c : Vec Ideal S256x1 .f32) (acc : Vec Ideal S1x2048 .f32)
    (z : Fin 1) (q : Fin 2048) :
    k0_pay10 (F := Ideal) w a c acc (ix2 z q) = acc (ix2 z q) + ∑ r : Fin 256, rowTerm a c w r q := by
  unfold k0_pay10 k0_pay8 k0_pay9
  simp only [shapeCast_self]
  show acc (ix2 z q) + shapeCast S1x2048 (multiReduction (F := Ideal) (φ := .f32) .add [0] S2048 _ 0x00000000#32 _ _ _) _ (ix2 z q) = _
  rw [Cert.Lib.Layout.rowCast_apply]
  refine congrArg (acc (ix2 z q) + ·) ((colSums_apply _ _ _ q).trans (Finset.sum_congr rfl fun r _ => ?_))
  show broadcastTo S256x2048 a _ (ix2 r q) * k0_pay6 w (ix2 r q) - broadcastTo S256x2048 c _ (ix2 r q) * k0_pay7 w (ix2 r q) = _
  rw [Cert.Lib.ColSum.bcastColMat_apply, Cert.Lib.ColSum.bcastColMat_apply, posPart_apply, negPart_apply]
  rfl

/-- The upper accumulator after one step: the same with the two bound vectors exchanged. -/
theorem upperStep_apply (w : Vec Ideal S256x2048 .f32) (a c : Vec Ideal S256x1 .f32) (acc : Vec Ideal S1x2048 .f32)
    (z : Fin 1) (q : Fin 2048) :
    k0_pay1 (F := Ideal) (k0_pay11 (F := Ideal) w a c acc) (ix2 z q) = acc (ix2 z q) + ∑ r : Fin 256, rowTerm c a w r q := by
  unfold k0_pay1 k0_pay11 k0_pay8 k0_pay9
  simp only [shapeCast_self]
  show acc (ix2 z q) + shapeCast S1x2048 (multiReduction (F := Ideal) (φ := .f32) .add [0] S2048 _ 0x00000000#32 _ _ _) _ (ix2 z q) = _
  rw [Cert.Lib.Layout.rowCast_apply]
  refine congrArg (acc (ix2 z q) + ·) ((colSums_apply _ _ _ q).trans (Finset.sum_congr rfl fun r _ => ?_))
  show broadcastTo S256x2048 c _ (ix2 r q) * k0_pay6 w (ix2 r q) - broadcastTo S256x2048 a _ (ix2 r q) * k0_pay7 w (ix2 r q) = _
  rw [Cert.Lib.ColSum.bcastColMat_apply, Cert.Lib.ColSum.bcastColMat_apply, posPart_apply, negPart_apply]
  rfl

/-- The reset value of either accumulator is zero at every entry. -/
theorem resetL_apply (i : S1x2048.Idx) : k0_pay4 (F := Ideal) i = 0 := by
  unfold k0_pay4
  simp only [shapeCast_self]
  exact Ideal.ofBits_zero_f32

theorem resetU_apply (i : S1x2048.Idx) : k0_pay5 (F := Ideal) i = 0 := by
  unfold k0_pay5
  simp only [shapeCast_self]
  exact Ideal.ofBits_zero_f32

/-- The two results of the last step: the accumulator plus the bias row, entry by entry. -/
theorem lowerOut_apply (s b : Vec Ideal S1x2048 .f32) (i : S1x2048.Idx) : k0_pay2 (F := Ideal) s b i = s i + b i := by
  unfold k0_pay2
  simp only [shapeCast_self]
  rfl

theorem upperOut_apply (s b : Vec Ideal S1x2048 .f32) (i : S1x2048.Idx) : k0_pay3 (F := Ideal) s b i = s i + b i := by
  unfold k0_pay3
  simp only [shapeCast_self]
  rfl

end Cert.KernelIdeal.Payloads

end
-- ==== Proof.LibRowToCol.lean ====
/-
  A row laid out as a column, read at an entry (a general lemma: nothing here depends on a program).

  A row of A entries [1, A], shape-cast to a column [A, 1], holds at (k, 0) the row's entry (0, k): both have
  row-major position k.
-/
import Idealize.ShloMosaic.Lib.ValueIdx
import Idealize.ShloMosaic.Lib.Pipeline.Value

noncomputable section

namespace Cert.Lib.RowToCol

open Idealize.ShloMosaic Idealize.ShloMosaic.ValueIdx

/-- Entry (k, 0) of the column is entry (0, k) of the row. -/
theorem rowAsCol_apply {α : Type} {A : Nat} (x : (⟨2, ![1, A]⟩ : Shape).Idx → α)
    (h : (⟨2, ![1, A]⟩ : Shape).ShapeCasts ⟨2, ![A, 1]⟩) (k : Fin A) (z z' : Fin 1) :
    shapeCast ⟨2, ![A, 1]⟩ x h (ix2 k z) = x (ix2 z' k) := by
  refine shapeCast_apply x h (ix2 k z) (ix2 z' k) ?_
  rw [Shape.rowMajor_val_two, Shape.rowMajor_val_two]
  show z'.val * A + k.val = k.val * 1 + z.val
  have := z.isLt; have := z'.isLt
  have hz' : z'.val = 0 := by omega
  rw [hz']; omega

end Cert.Lib.RowToCol

end
-- ==== Proof.Blocks.lean ====
/-
  The blocks the kernel reads, as entries of the argument arrays.

  The grid has 4 column blocks (of 2048 columns) and, within each, 32 row blocks (of 256 rows); point t is column
  block t / 32 and row block t % 32.  At point t the kernel is handed rows 256 (t % 32) .. of the two bound vectors
  (which the program first lays out as columns of 8192 entries), the matching 256 by 2048 block of the weights at
  columns 2048 (t / 32) .., and columns 2048 (t / 32) .. of the bias (first laid out as a row).
-/
import proofs.«169212_j46265387713121_1_alg».proof.Proof.Gen.KernelIdeal.Frame
import proofs.«169212_j46265387713121_1_alg».proof.Proof.LibLayout
import proofs.«169212_j46265387713121_1_alg».proof.Proof.LibRowToCol
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The row of the arrays that row r of point t's block is. -/
def rowOf (t : Fin cfg0.N) (r : Fin 256) : Fin 8192 :=
  ⟨256 * (t.val % 32) + r.val, by have := r.isLt; have := Nat.mod_lt t.val (by decide : 32 > 0); omega⟩

/-- The column of the arrays that column q of point t's block is. -/
def colOf (t : Fin cfg0.N) (q : Fin 2048) : Fin 8192 :=
  ⟨2048 * (t.val / 32) + q.val, by have := q.isLt; have := t.isLt; have hN : cfg0.N = 128 := N_0; omega⟩

/-- Where each window's block sits at point t: block-row t % 32 of the bound vectors, block (t % 32, t / 32) of the
    weights, block-column t / 32 of the bias and of the results. -/
theorem index_l : ∀ t : Fin cfg0.N, win0_0.index t (0 : Fin 2) = t.val % 32 ∧ win0_0.index t (1 : Fin 2) = 0 :=
  (by decide +kernel : ∀ t : Fin grid0.N, win0_0.index t (0 : Fin 2) = t.val % 32 ∧ win0_0.index t (1 : Fin 2) = 0)
theorem index_u : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)
theorem index_w : ∀ t : Fin cfg0.N, win0_2.index t (0 : Fin 2) = t.val % 32 ∧ win0_2.index t (1 : Fin 2) = t.val / 32 :=
  (by decide +kernel : ∀ t : Fin grid0.N, win0_2.index t (0 : Fin 2) = t.val % 32 ∧ win0_2.index t (1 : Fin 2) = t.val / 32)
theorem index_b : ∀ t : Fin cfg0.N, win0_3.index t (0 : Fin 2) = 0 ∧ win0_3.index t (1 : Fin 2) = t.val / 32 :=
  (by decide +kernel : ∀ t : Fin grid0.N, win0_3.index t (0 : Fin 2) = 0 ∧ win0_3.index t (1 : Fin 2) = t.val / 32)
theorem index_lo : ∀ t : Fin cfg0.N, win0_4.index t (0 : Fin 2) = 0 ∧ win0_4.index t (1 : Fin 2) = t.val / 32 :=
  (by decide +kernel : ∀ t : Fin grid0.N, win0_4.index t (0 : Fin 2) = 0 ∧ win0_4.index t (1 : Fin 2) = t.val / 32)
theorem index_hi : ∀ t : Fin cfg0.N, win0_5.index t (0 : Fin 2) = 0 ∧ win0_5.index t (1 : Fin 2) = t.val / 32 :=
  (by decide +kernel : ∀ t : Fin grid0.N, win0_5.index t (0 : Fin 2) = 0 ∧ win0_5.index t (1 : Fin 2) = t.val / 32)

/-- The three arrays the program lays out again before the kernel: the two bound vectors as columns, the bias as a row. -/
theorem V_lcol (c : Dev nD) :
    (V m c main_v0 : S8192x1.Idx → Elt F .f32) = shapeCast S8192x1 (m ((c : Thread nD τ).loc main_arg0)) shapeCasts_S1x8192_S8192x1 := by
  dsimp only [V, hostOps0]; after_results; rfl
theorem V_ucol (c : Dev nD) :
    (V m c main_v1 : S8192x1.Idx → Elt F .f32) = shapeCast S8192x1 (m ((c : Thread nD τ).loc main_arg1)) shapeCasts_S1x8192_S8192x1 := by
  dsimp only [V, hostOps0]; after_results; rfl
theorem V_brow (c : Dev nD) :
    (V m c main_v2 : S1x8192.Idx → Elt F .f32) = shapeCast S1x8192 (m ((c : Thread nD τ).loc main_arg3)) shapeCasts_S8192_S1x8192 := by
  dsimp only [V, hostOps0]; after_results; rfl

/-- The blocks at point t, by their literal types. -/
abbrev lblk (c : Dev nD) (t : Fin cfg0.N) : Vec F S256x1 .f32 := iblk m c 0 t
abbrev ublk (c : Dev nD) (t : Fin cfg0.N) : Vec F S256x1 .f32 := iblk m c 1 t
abbrev wblk (c : Dev nD) (t : Fin cfg0.N) : Vec F S256x2048 .f32 := iblk m c 2 t
abbrev bblk (c : Dev nD) (t : Fin cfg0.N) : Vec F S1x2048 .f32 := iblk m c 3 t

/-- Row r of the lower-bound block is entry `rowOf t r` of the lower-bound vector. -/
theorem lblk_apply (c : Dev nD) (t : Fin cfg0.N) (r : Fin 256) (z : Fin 1) :
    lblk m c t (ix2 r z) = m ((c : Thread nD τ).loc main_arg0) (ix2 (0 : Fin 1) (rowOf t r)) := by
  unfold lblk iblk
  rw [View.read_apply]
  show V m c main_v0 _ = _
  rw [V_lcol m c]
  refine Eq.trans ?_ (Cert.Lib.RowToCol.rowAsCol_apply (m ((c : Thread nD τ).loc main_arg0) : S1x8192.Idx → Elt F .f32) shapeCasts_S1x8192_S8192x1 (rowOf t r) (0 : Fin 1) (0 : Fin 1))
  congr 1
  funext a
  apply Fin.ext
  match a with
  | ⟨0, _⟩ => show win0_0.index t 0 * 256 + 1 * r.val = 256 * (t.val % 32) + r.val; rw [(index_l t).1]; omega
  | ⟨1, _⟩ => show win0_0.index t 1 * 1 + 1 * z.val = 0; rw [(index_l t).2]; have := z.isLt; omega

/-- Row r of the upper-bound block is entry `rowOf t r` of the upper-bound vector. -/
theorem ublk_apply (c : Dev nD) (t : Fin cfg0.N) (r : Fin 256) (z : Fin 1) :
    ublk m c t (ix2 r z) = m ((c : Thread nD τ).loc main_arg1) (ix2 (0 : Fin 1) (rowOf t r)) := by
  unfold ublk iblk
  rw [View.read_apply]
  show V m c main_v1 _ = _
  rw [V_ucol m c]
  refine Eq.trans ?_ (Cert.Lib.RowToCol.rowAsCol_apply (m ((c : Thread nD τ).loc main_arg1) : S1x8192.Idx → Elt F .f32) shapeCasts_S1x8192_S8192x1 (rowOf t r) (0 : Fin 1) (0 : Fin 1))
  congr 1
  funext a
  apply Fin.ext
  match a with
  | ⟨0, _⟩ => show win0_1.index t 0 * 256 + 1 * r.val = 256 * (t.val % 32) + r.val; rw [(index_u t).1]; omega
  | ⟨1, _⟩ => show win0_1.index t 1 * 1 + 1 * z.val = 0; rw [(index_u t).2]; have := z.isLt; omega

/-- Entry (r, q) of the weight block is entry (`rowOf t r`, `colOf t q`) of the weights. -/
theorem wblk_apply (c : Dev nD) (t : Fin cfg0.N) (r : Fin 256) (q : Fin 2048) :
    wblk m c t (ix2 r q) = m ((c : Thread nD τ).loc main_arg2) (ix2 (rowOf t r) (colOf t q)) := by
  unfold wblk iblk
  rw [View.read_apply]
  show V m c main_arg2 _ = _
  rw [V_main_arg2 m c]
  congr 1
  funext a
  apply Fin.ext
  match a with
  | ⟨0, _⟩ => show win0_2.index t 0 * 256 + 1 * r.val = 256 * (t.val % 32) + r.val; rw [(index_w t).1]; omega
  | ⟨1, _⟩ => show win0_2.index t 1 * 2048 + 1 * q.val = 2048 * (t.val / 32) + q.val; rw [(index_w t).2]; omega

/-- Column q of the bias block is entry `colOf t q` of the bias. -/
theorem bblk_apply (c : Dev nD) (t : Fin cfg0.N) (z : Fin 1) (q : Fin 2048) :
    bblk m c t (ix2 z q) = m ((c : Thread nD τ).loc main_arg3) (ix1 (colOf t q)) := by
  unfold bblk iblk
  rw [View.read_apply]
  show V m c main_v2 _ = _
  rw [V_brow m c]
  refine Eq.trans ?_ (Cert.Lib.Layout.rowCast_apply (m ((c : Thread nD τ).loc main_arg3) : S8192.Idx → Elt F .f32) shapeCasts_S8192_S1x8192 (0 : Fin 1) (colOf t q))
  congr 1
  funext a
  apply Fin.ext
  match a with
  | ⟨0, _⟩ => show win0_3.index t 0 * 1 + 1 * z.val = 0; rw [(index_b t).1]; have := z.isLt; omega
  | ⟨1, _⟩ => show win0_3.index t 1 * 2048 + 1 * q.val = 2048 * (t.val / 32) + q.val; rw [(index_b t).2]; omega

end Cert.KernelIdeal.Blocks

end
-- ==== Proof.LibBlockSum.lean ====
/-
  A sum over B·J consecutive naturals, block by block (a general lemma: nothing here depends on a program).
-/
import Mathlib.Algebra.BigOperators.Fin
import Mathlib.Algebra.BigOperators.Intervals

namespace BlockSum

/-- The sum of `f` over `0 … B·J − 1` is the sum over the `J` blocks of the `B` terms of each block. -/
theorem sum_blocks {β : Type*} [AddCommMonoid β] (B J : ℕ) (f : ℕ → β) :
    ∑ s ∈ Finset.range J, ∑ j : Fin B, f (B * s + j.val) = ∑ k : Fin (B * J), f k.val := by
  -- Both sides become sums over initial segments of ℕ; then one block is split off at a time.
  rw [Fin.sum_univ_eq_sum_range (fun k => f k) (B * J)]
  induction J with
  | zero => simp
  | succ J ih =>
    rw [Finset.sum_range_succ, ih, Nat.mul_succ, Finset.sum_range_add,
      Fin.sum_univ_eq_sum_range (fun j => f (B * J + j)) B]

end BlockSum
-- ==== Proof.IntervalSpec.lean ====
/-
  The interval bound of a linear layer as one function of the argument arrays, and its sum taken block by block.

  For bound vectors a, c (rows of 8192 entries), a weight matrix W (8192 by 8192) and a bias b (8192 entries) the
  bound at output column n is
      sum over k < 8192 of ( a(k) max(W(k,n), 0) - c(k) max(0 - W(k,n), 0) )  +  b(n).
  With (a, c) = (l, u) this is the lower bound and with (a, c) = (u, l) the upper bound.  The sum over the 8192 rows
  is the sum over 32 blocks of 256 rows each, which is the order a blocked accumulation takes them in.
-/
import proofs.«169212_j46265387713121_1_alg».proof.Proof.LibBlockSum
import Idealize.ShloMosaic.PureOps.Ideal
import Idealize.ShloMosaic.Lib.ValueIdx

noncomputable section

open scoped BigOperators

namespace Cert.IntervalSpec

open Idealize.ShloMosaic Idealize.ShloMosaic.ValueIdx

abbrev Row : Shape := ⟨2, ![1, 8192]⟩
abbrev Mat : Shape := ⟨2, ![8192, 8192]⟩
abbrev Vec1 : Shape := ⟨1, ![8192]⟩

/-- Row k's term at column n. -/
def term (a c : Row.Idx → EReal) (W : Mat.Idx → EReal) (k n : Fin 8192) : EReal :=
  a (ix2 0 k) * max (W (ix2 k n)) 0 - c (ix2 0 k) * max (0 - W (ix2 k n)) 0

/-- The bound, entry by entry: the sum of the terms down column n, plus the bias at n. -/
def bound (a c : Row.Idx → EReal) (W : Mat.Idx → EReal) (b : Vec1.Idx → EReal) : Row.Idx → EReal :=
  fun i => (∑ k : Fin 8192, term a c W k (i 1)) + b (ix1 (i 1))

/-- The same term with the row given as a natural number (zero past the last row), for sums over ranges. -/
def termN (a c : Row.Idx → EReal) (W : Mat.Idx → EReal) (n : Fin 8192) (k : ℕ) : EReal :=
  if h : k < 8192 then term a c W ⟨k, h⟩ n else 0

theorem termN_of_lt (a c : Row.Idx → EReal) (W : Mat.Idx → EReal) (n : Fin 8192) (k : Fin 8192) :
    termN a c W n k.val = term a c W k n := dif_pos k.isLt

/-- The partial sum over the first j blocks of 256 rows. -/
def partialSum (a c : Row.Idx → EReal) (W : Mat.Idx → EReal) (n : Fin 8192) (j : ℕ) : EReal :=
  ∑ s ∈ Finset.range j, ∑ r : Fin 256, termN a c W n (256 * s + r.val)

theorem partialSum_one (a c : Row.Idx → EReal) (W : Mat.Idx → EReal) (n : Fin 8192) :
    partialSum a c W n 1 = ∑ r : Fin 256, termN a c W n (256 * 0 + r.val) := by
  unfold partialSum; rw [Finset.sum_range_one]

theorem partialSum_succ (a c : Row.Idx → EReal) (W : Mat.Idx → EReal) (n : Fin 8192) (j : ℕ) :
    partialSum a c W n (j + 1) = partialSum a c W n j + ∑ r : Fin 256, termN a c W n (256 * j + r.val) := by
  unfold partialSum; rw [Finset.sum_range_succ]

/-- All 32 blocks make the whole column sum. -/
theorem partialSum_all (a c : Row.Idx → EReal) (W : Mat.Idx → EReal) (n : Fin 8192) :
    partialSum a c W n 32 = ∑ k : Fin 8192, term a c W k n := by
  unfold partialSum
  rw [BlockSum.sum_blocks 256 32 (termN a c W n)]
  exact Finset.sum_congr rfl fun k _ => termN_of_lt a c W n k

end Cert.IntervalSpec

end
-- ==== Proof.Accumulate.lean ====
/-
  The kernel's two result arrays are the interval bounds: the accumulation over the grid, read as values.

  Within a column block the 32 row-block steps run in order.  After the step at point t each accumulator holds, at
  column q, the sum of the row terms over the first t % 32 + 1 row blocks (by induction on the point: the first step
  of a column block starts from the zero row, every later one adds its block's 256 terms to what the step before
  left).  The last step of the column block (t % 32 = 31) has then summed all 8192 rows, adds the bias, and its result
  block is written back to columns 2048 (t / 32) .. of the result; the four last steps cover all 8192 columns.
-/
import proofs.«169212_j46265387713121_1_alg».proof.Proof.Gen.KernelIdeal.Value
import proofs.«169212_j46265387713121_1_alg».proof.Proof.Pieces
import proofs.«169212_j46265387713121_1_alg».proof.Proof.Payloads
import proofs.«169212_j46265387713121_1_alg».proof.Proof.Blocks
import proofs.«169212_j46265387713121_1_alg».proof.Proof.IntervalSpec
import Idealize.ShloMosaic.Lib.Pipeline.Value

noncomputable section

open scoped BigOperators

namespace Cert.KernelIdeal.Accumulate

open Cert.KernelIdeal Cert.KernelIdeal.Gen Cert.KernelIdeal.Blocks Cert.IntervalSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four argument arrays on core c, as arrays of extended reals. -/
abbrev lArr (c : Dev nD) : Row.Idx → EReal := m ((c : Thread nD τ).loc main_arg0)
abbrev uArr (c : Dev nD) : Row.Idx → EReal := m ((c : Thread nD τ).loc main_arg1)
abbrev wArr (c : Dev nD) : Mat.Idx → EReal := m ((c : Thread nD τ).loc main_arg2)
abbrev bArr (c : Dev nD) : Vec1.Idx → EReal := m ((c : Thread nD τ).loc main_arg3)

/-- Row r of point t's blocks contributes, at column q, the term of row `rowOf t r` at column `colOf t q`: for the
    lower bound, -/
theorem rowTerm_lower (c : Dev nD) (t : Fin cfg0.N) (r : Fin 256) (q : Fin 2048) :
    Payloads.rowTerm (lblk m c t) (ublk m c t) (wblk m c t) r q
      = termN (lArr m c) (uArr m c) (wArr m c) (colOf t q) (256 * (t.val % 32) + r.val) := by
  rw [show 256 * (t.val % 32) + r.val = (rowOf t r).val from rfl, termN_of_lt]
  unfold Payloads.rowTerm term
  rw [lblk_apply m c t r 0, ublk_apply m c t r 0, wblk_apply m c t r q]

/-- and for the upper bound, with the two vectors exchanged. -/
theorem rowTerm_upper (c : Dev nD) (t : Fin cfg0.N) (r : Fin 256) (q : Fin 2048) :
    Payloads.rowTerm (ublk m c t) (lblk m c t) (wblk m c t) r q
      = termN (uArr m c) (lArr m c) (wArr m c) (colOf t q) (256 * (t.val % 32) + r.val) := by
  rw [show 256 * (t.val % 32) + r.val = (rowOf t r).val from rfl, termN_of_lt]
  unfold Payloads.rowTerm term
  rw [lblk_apply m c t r 0, ublk_apply m c t r 0, wblk_apply m c t r q]

/-- What the two accumulators hold after point n: the partial sums over the row blocks done so far in n's column block. -/
def Inv (c : Dev nD) (n : ℕ) (hn : n < cfg0.N) : Prop :=
  ∀ (z : Fin 1) (q : Fin 2048),
    (outsAt0 m c n hn).2.2.1 (ix2 z q) = partialSum (lArr m c) (uArr m c) (wArr m c) (colOf ⟨n, hn⟩ q) (n % 32 + 1)
    ∧ (outsAt0 m c n hn).2.2.2 (ix2 z q) = partialSum (uArr m c) (lArr m c) (wArr m c) (colOf ⟨n, hn⟩ q) (n % 32 + 1)

/-- The first step of a column block: the zero rows plus the first row block's sums. -/
theorem inv_first (c : Dev nD) (t : Fin cfg0.N) (h0 : t.val % 32 = 0) : Inv m c t.val t.isLt := by
  intro z q
  have h1 : ¬t.val % 32 = 31 := by omega
  rw [outsAt0_A m c t h0 h1]
  dsimp only
  rw [Pieces.lower_A, Pieces.upper_A, Payloads.lowerStep_apply, Payloads.upperStep_apply, Payloads.resetL_apply,
    Payloads.resetU_apply, zero_add, zero_add, h0, partialSum_one, partialSum_one]
  constructor
  · refine Finset.sum_congr rfl fun r _ => ?_
    rw [show 256 * 0 + r.val = 256 * (t.val % 32) + r.val by rw [h0]]
    exact rowTerm_lower m c t r q
  · refine Finset.sum_congr rfl fun r _ => ?_
    rw [show 256 * 0 + r.val = 256 * (t.val % 32) + r.val by rw [h0]]
    exact rowTerm_upper m c t r q

/-- A later step: what the step before left plus this row block's sums. -/
theorem inv_next (c : Dev nD) (t : Fin cfg0.N) (h0 : ¬t.val % 32 = 0)
    (ih : Inv m c (t.val - 1) (Nat.lt_of_le_of_lt (Nat.sub_le _ _) t.isLt)) : Inv m c t.val t.isLt := by
  intro z q
  have hcol : colOf ⟨t.val - 1, Nat.lt_of_le_of_lt (Nat.sub_le _ _) t.isLt⟩ q = colOf t q := by
    apply Fin.ext
    show 2048 * ((t.val - 1) / 32) + q.val = 2048 * (t.val / 32) + q.val
    omega
  have hprev : (t.val - 1) % 32 + 1 = t.val % 32 := by omega
  obtain ⟨ihL, ihU⟩ := ih z q
  rw [hcol, hprev] at ihL ihU
  by_cases h1 : t.val % 32 = 31
  · rw [outsAt0_C m c t h0 h1]
    dsimp only
    rw [Pieces.lower_C, Pieces.upper_C, Payloads.lowerStep_apply, Payloads.upperStep_apply, ihL, ihU, partialSum_succ,
      partialSum_succ]
    exact ⟨congrArg (_ + ·) (Finset.sum_congr rfl fun r _ => rowTerm_lower m c t r q),
      congrArg (_ + ·) (Finset.sum_congr rfl fun r _ => rowTerm_upper m c t r q)⟩
  · rw [outsAt0_B m c t h0 h1]
    dsimp only
    rw [Pieces.lower_B, Pieces.upper_B, Payloads.lowerStep_apply, Payloads.upperStep_apply, ihL, ihU, partialSum_succ,
      partialSum_succ]
    exact ⟨congrArg (_ + ·) (Finset.sum_congr rfl fun r _ => rowTerm_lower m c t r q),
      congrArg (_ + ·) (Finset.sum_congr rfl fun r _ => rowTerm_upper m c t r q)⟩

/-- So after every point, by induction on the point. -/
theorem inv_all (c : Dev nD) : ∀ (n : ℕ) (hn : n < cfg0.N), Inv m c n hn
  | 0, hn => inv_first m c ⟨0, hn⟩ rfl
  | n + 1, hn => by
    by_cases h0 : (n + 1) % 32 = 0
    · exact inv_first m c ⟨n + 1, hn⟩ h0
    · exact inv_next m c ⟨n + 1, hn⟩ h0 (inv_all c n (Nat.lt_of_succ_lt hn))

end Cert.KernelIdeal.Accumulate

end
-- ==== Proof.KernelValue.lean ====
/-
  From the last steps' result blocks to the two result arrays.

  At a point t with t % 32 = 31 the accumulators have taken in all 32 row blocks, so the lower result block holds, at
  column q, the whole column sum of the terms at column 2048 (t / 32) + q plus the bias there: the lower bound at that
  column.  Such a point's block is written back to columns 2048 (t / 32) .. 2048 (t / 32) + 2047 of the result, and
  the four such points cover every column, so each result array ends as the bound function of the arguments.
-/
import proofs.«169212_j46265387713121_1_alg».proof.Proof.Accumulate

noncomputable section

open scoped BigOperators

namespace Cert.KernelIdeal.KernelValue

open Cert.KernelIdeal Cert.KernelIdeal.Gen Cert.KernelIdeal.Blocks Cert.KernelIdeal.Accumulate Cert.IntervalSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two bounds of the arguments on core c. -/
abbrev lowerOf (c : Dev nD) : Row.Idx → EReal := bound (lArr m c) (uArr m c) (wArr m c) (bArr m c)
abbrev upperOf (c : Dev nD) : Row.Idx → EReal := bound (uArr m c) (lArr m c) (wArr m c) (bArr m c)

/-- At a last step the lower result block holds the lower bound at the block's columns, -/
theorem lowerOut_at (c : Dev nD) (t : Fin cfg0.N) (h1 : t.val % 32 = 31) (z : Fin 1) (q : Fin 2048) :
    (outsAt0 m c t.val t.isLt).1 (ix2 z q) = lowerOf m c (ix2 (0 : Fin 1) (colOf t q)) := by
  have h0 : ¬t.val % 32 = 0 := by omega
  have hinv := (inv_all m c t.val t.isLt z q).1
  rw [outsAt0_C m c t h0 h1] at hinv ⊢
  dsimp only at hinv ⊢
  rw [Pieces.lower_C] at hinv
  rw [Pieces.lowerOut_C, Payloads.lowerOut_apply, hinv, h1, partialSum_all]
  exact congrArg (_ + ·) (bblk_apply m c t z q)

/-- and the upper result block the upper bound. -/
theorem upperOut_at (c : Dev nD) (t : Fin cfg0.N) (h1 : t.val % 32 = 31) (z : Fin 1) (q : Fin 2048) :
    (outsAt0 m c t.val t.isLt).2.1 (ix2 z q) = upperOf m c (ix2 (0 : Fin 1) (colOf t q)) := by
  have h0 : ¬t.val % 32 = 0 := by omega
  have hinv := (inv_all m c t.val t.isLt z q).2
  rw [outsAt0_C m c t h0 h1] at hinv ⊢
  dsimp only at hinv ⊢
  rw [Pieces.upper_C] at hinv
  rw [Pieces.upperOut_C, Payloads.upperOut_apply, hinv, h1, partialSum_all]
  exact congrArg (_ + ·) (bblk_apply m c t z q)

/-- What a last step writes back to the lower result is the block of the lower bound at its columns. -/
theorem flushed_lower (c : Dev nD) (t : Fin cfg0.N) (hf : (cfg0.win 4).flush t = true) :
    (dats m 0 c).flushed 4 t = ((cfg0.win 4).blk t).view.read (Elt Ideal) (lowerOf m c) := by
  have h1 : t.val % 32 = 31 := (flush0_4 t).mp hf
  rw [Value.flushed4 m c t]
  funext y
  show (outsAt0 m c t.val t.isLt).1 y = lowerOf m c (((cfg0.win 4).blk t).view.emb y)
  obtain ⟨z, q, rfl⟩ : ∃ (z : Fin 1) (q : Fin 2048), y = ix2 z q := ⟨y 0, y 1, eq_ix2 y⟩
  rw [lowerOut_at m c t h1 z q]
  congr 1
  funext a
  apply Fin.ext
  match a with
  | ⟨0, _⟩ => show 0 = win0_4.index t 0 * 1 + 1 * z.val; rw [(index_lo t).1]; have := z.isLt; omega
  | ⟨1, _⟩ => show 2048 * (t.val / 32) + q.val = win0_4.index t 1 * 2048 + 1 * q.val; rw [(index_lo t).2]; omega

theorem flushed_upper (c : Dev nD) (t : Fin cfg0.N) (hf : (cfg0.win 5).flush t = true) :
    (dats m 0 c).flushed 5 t = ((cfg0.win 5).blk t).view.read (Elt Ideal) (upperOf m c) := by
  have h1 : t.val % 32 = 31 := (flush0_5 t).mp hf
  rw [Value.flushed5 m c t]
  funext y
  show (outsAt0 m c t.val t.isLt).2.1 y = upperOf m c (((cfg0.win 5).blk t).view.emb y)
  obtain ⟨z, q, rfl⟩ : ∃ (z : Fin 1) (q : Fin 2048), y = ix2 z q := ⟨y 0, y 1, eq_ix2 y⟩
  rw [upperOut_at m c t h1 z q]
  congr 1
  funext a
  apply Fin.ext
  match a with
  | ⟨0, _⟩ => show 0 = win0_5.index t 0 * 1 + 1 * z.val; rw [(index_hi t).1]; have := z.isLt; omega
  | ⟨1, _⟩ => show 2048 * (t.val / 32) + q.val = win0_5.index t 1 * 2048 + 1 * q.val; rw [(index_hi t).2]; omega

/-- An index of a result array is in point t's block when each coordinate is in the block's range on its axis. -/
theorem mem_blk_lower (t : Fin cfg0.N) (i : S1x8192.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v3_0).slice (win0_4.rect t)).set ↔ _
  rw [View.set_slice_whole, Rect.mem_set_unit]
  exact Iff.rfl

theorem mem_blk_upper (t : Fin cfg0.N) (i : S1x8192.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v3_1).slice (win0_5.rect t)).set ↔ _
  rw [View.set_slice_whole, Rect.mem_set_unit]
  exact Iff.rfl

/-- The last step of column block n / 2048 covers column n. -/
def lastOf (i : S1x8192.Idx) : Fin cfg0.N :=
  ⟨32 * ((i 1).val / 2048) + 31, by have : (i 1).val < 8192 := (i 1).isLt; have hN : cfg0.N = 128 := N_0; omega⟩

theorem cover_lower (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  have hv : (lastOf i).val = 32 * ((i 1).val / 2048) + 31 := rfl
  refine ⟨lastOf i, (flush0_4 _).mpr (by rw [hv]; omega), ?_⟩
  rw [mem_blk_lower]
  intro a
  match a with
  | ⟨0, _⟩ => show win0_4.index (lastOf i) 0 * 1 ≤ (i 0).val ∧ (i 0).val < win0_4.index (lastOf i) 0 * 1 + 1
              rw [(index_lo _).1]; omega
  | ⟨1, _⟩ => show win0_4.index (lastOf i) 1 * 2048 ≤ (i 1).val ∧ (i 1).val < win0_4.index (lastOf i) 1 * 2048 + 2048
              rw [(index_lo _).2, hv]; omega

theorem cover_upper (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hv : (lastOf i).val = 32 * ((i 1).val / 2048) + 31 := rfl
  refine ⟨lastOf i, (flush0_5 _).mpr (by rw [hv]; omega), ?_⟩
  rw [mem_blk_upper]
  intro a
  match a with
  | ⟨0, _⟩ => show win0_5.index (lastOf i) 0 * 1 ≤ (i 0).val ∧ (i 0).val < win0_5.index (lastOf i) 0 * 1 + 1
              rw [(index_hi _).1]; omega
  | ⟨1, _⟩ => show win0_5.index (lastOf i) 1 * 2048 ≤ (i 1).val ∧ (i 1).val < win0_5.index (lastOf i) 1 * 2048 + 2048
              rw [(index_hi _).2, hv]; omega

/-- The result arrays after the run. -/
theorem final_lower (c : Dev nD) : (dats m 0 c).arrAt 4 cfg0.N = lowerOf m c :=
  (dats m 0 c).arrAt_eq_of_cover 4 (lowerOf m c) (fun t hf => flushed_lower m c t hf) cover_lower

theorem final_upper (c : Dev nD) : (dats m 0 c).arrAt 5 cfg0.N = upperOf m c :=
  (dats m 0 c).arrAt_eq_of_cover 5 (upperOf m c) (fun t hf => flushed_upper m c t hf) cover_upper

/-- The kernel's run: it ends with the two results at the two bounds of the arguments, the arguments unchanged. -/
theorem run : θ_run defs (onTc (τ := τ) (main (F := Ideal))) ⟨m, fun _ => 0, ρ⟩ fun r => ∀ c : Dev nD,
      r.2.mem ((c : Thread nD τ).loc main_v3_0) = lowerOf m c
      ∧ r.2.mem ((c : Thread nD τ).loc main_v3_1) = upperOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_lower m c), (h c).2.1.trans (final_upper m c), (h c).2.2⟩)
    (Value.run_blocks m ρ)

end Cert.KernelIdeal.KernelValue

end
-- ==== Proof.IntervalLaw.lean ====
/-
  Interval bounds through a linear layer: one term, in its masked form and in its split form.

  For a weight w put m = (1 + sign w) / 2, which is 1, 1/2 or 0 as w is positive, zero or negative.  The masked term
  (a m + c (1 - m)) w is a w for w > 0, c w for w < 0 and 0 at w = 0.  The split term a max(w, 0) - c max(0 - w, 0)
  takes the same three values.  So the two agree at every real a, c, w; read on the extended reals at finite
  entries, where every operation stays finite, they are the same number.  (At an infinite entry they differ:
  0 times an infinity is 0 on the extended reals while the difference of two infinities is not, which is why the
  statement asks for real entries.)
-/
import Idealize.ShloMosaic.PureOps.Ideal
import Idealize.ShloMosaic.Lib.IdealHost

noncomputable section

namespace Cert.IntervalLaw

open Idealize.ShloMosaic

/-- The embedding of the reals in the extended reals carries a maximum to the maximum. -/
theorem coe_max (x y : ℝ) : ((max x y : ℝ) : EReal) = max (x : EReal) (y : EReal) :=
  (EReal.coe_strictMono.monotone).map_max

/-- On the reals the masked term is the split term, by the three cases of the weight's sign. -/
theorem term_real (a c w : ℝ) :
    (a * ((1 + (SignType.sign w : ℝ)) * (1 / 2)) + c * (1 - (1 + (SignType.sign w : ℝ)) * (1 / 2))) * w
      = a * max w 0 - c * max (0 - w) 0 := by
  rcases lt_trichotomy w 0 with h | h | h
  · rw [sign_neg h, max_eq_right h.le, max_eq_left (by linarith : (0 : ℝ) ≤ 0 - w)]
    simp only [SignType.coe_neg_one]; ring
  · subst h; simp
  · rw [sign_pos h, max_eq_left h.le, max_eq_right (by linarith : 0 - w ≤ (0 : ℝ))]
    simp only [SignType.coe_one]; ring

/-- The same on the extended reals at real entries, with the sign taken by the ideal instance's `sign` and the
    constants one and one half as extended reals. -/
theorem term_ereal (a c w : ℝ) :
    ((a : EReal) * ((1 + Ideal.sign (w : EReal)) * ((1 / 2 : ℝ) : EReal))
        + (c : EReal) * (1 - (1 + Ideal.sign (w : EReal)) * ((1 / 2 : ℝ) : EReal))) * (w : EReal)
      = (a : EReal) * max (w : EReal) 0 - (c : EReal) * max (0 - (w : EReal)) 0 := by
  have h := congrArg (fun r : ℝ => (r : EReal)) (term_real a c w)
  simp only [EReal.coe_mul, EReal.coe_add, EReal.coe_sub, EReal.coe_one, EReal.coe_zero, coe_max] at h
  rw [Ideal.sign_coe]
  exact h

/-- The pattern of one half denotes the real 1/2. -/
theorem ofBits_half_f32 : Ideal.ofBits .f32 0x3F000000#32 = ((1 / 2 : ℝ) : EReal) := by
  simp [Ideal.ofBits, Ideal.ieee, -EReal.coe_mul]; norm_num

/-- The masked term over the bit patterns of one and one half, at entries that are real numbers, is the split term. -/
theorem maskTerm_eq (a c w : EReal) (ha : ∃ r : ℝ, a = (r : EReal)) (hc : ∃ r : ℝ, c = (r : EReal)) (hw : ∃ r : ℝ, w = (r : EReal)) :
    (a * ((Ideal.ofBits .f32 0x3F800000#32 + Ideal.sign w) * Ideal.ofBits .f32 0x3F000000#32)
        + c * (Ideal.ofBits .f32 0x3F800000#32 - (Ideal.ofBits .f32 0x3F800000#32 + Ideal.sign w) * Ideal.ofBits .f32 0x3F000000#32)) * w
      = a * max w 0 - c * max (0 - w) 0 := by
  obtain ⟨a, rfl⟩ := ha; obtain ⟨c, rfl⟩ := hc; obtain ⟨w, rfl⟩ := hw
  rw [Ideal.ofBits_one_f32, ofBits_half_f32]
  exact term_ereal a c w

end Cert.IntervalLaw

end
-- ==== Proof.RefValue.lean ====
/-
  The reference's two results are the interval bounds.

  The reference forms the mask m = (1 + sign W) / 2, the mixtures l m + u (1 - m) and u m + l (1 - m), multiplies
  each by W, sums down the columns from zero and adds the bias.  Entry by entry, at inputs that are real numbers,
  each product is the split term of the interval bound, so each result is the bound function of the arguments.
-/
import proofs.«169212_j46265387713121_1_alg».proof.Proof.Gen.ReferenceIdeal.Read
import proofs.«169212_j46265387713121_1_alg».proof.Proof.IntervalLaw
import proofs.«169212_j46265387713121_1_alg».proof.Proof.IntervalSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- Every entry of an array is a real number. -/
def Real' {s : Shape} (x : s.Idx → EReal) : Prop := ∀ i, ∃ r : ℝ, x i = (r : EReal)

variable (x0 x1 : FVec Ideal S1x8192 .f32) (x2 : FVec Ideal S8192x8192 .f32) (x3 : FVec Ideal S8192 .f32)

/-- The lower result's product at (k, q) is row k's term at column q, for the pair (l, u). -/
theorem lowerProd_apply (h0 : Real' x0) (h1 : Real' x1) (h2 : Real' x2) (k q : Fin 8192) :
    val_main_v14 (F := Ideal) x0 x1 x2 (ix2 k q) = Cert.IntervalSpec.term x0 x1 x2 k q := by
  have e5 : idx_main_v5 (idx_main_v7 (ix2 k q)) = ix2 (0 : Fin 1) k :=
    funext fun a => Fin.ext (by match a with | ⟨0, _⟩ => rfl | ⟨1, _⟩ => rfl)
  have e6 : idx_main_v6 (idx_main_v11 (ix2 k q)) = ix2 (0 : Fin 1) k :=
    funext fun a => Fin.ext (by match a with | ⟨0, _⟩ => rfl | ⟨1, _⟩ => rfl)
  simp only [val_main_v14_apply, val_main_v13_apply, val_main_v8_apply, val_main_v12_apply, val_main_v7_apply,
    val_main_v5_apply, val_main_v11_apply, val_main_v6_apply, val_main_v10_apply, val_main_v9_apply,
    val_main_cst_1_apply, val_main_v4_apply, val_main_v2_apply, val_main_v3_apply, val_main_cst_0_apply,
    val_main_v1_apply, val_main_cst_apply, val_main_v0_apply, e5, e6,
    Ideal.mulf_def, Ideal.addf_def, Ideal.subf_def, Ideal.hostUnary_sign_def, Ideal.ofBits_def]
  exact Cert.IntervalLaw.maskTerm_eq _ _ _ (h0 _) (h1 _) (h2 _)

/-- The upper result's product at (k, q) is row k's term at column q, for the pair (u, l). -/
theorem upperProd_apply (h0 : Real' x0) (h1 : Real' x1) (h2 : Real' x2) (k q : Fin 8192) :
    val_main_v24 (F := Ideal) x0 x1 x2 (ix2 k q) = Cert.IntervalSpec.term x1 x0 x2 k q := by
  have e5 : idx_main_v5 (idx_main_v21 (ix2 k q)) = ix2 (0 : Fin 1) k :=
    funext fun a => Fin.ext (by match a with | ⟨0, _⟩ => rfl | ⟨1, _⟩ => rfl)
  have e6 : idx_main_v6 (idx_main_v17 (ix2 k q)) = ix2 (0 : Fin 1) k :=
    funext fun a => Fin.ext (by match a with | ⟨0, _⟩ => rfl | ⟨1, _⟩ => rfl)
  simp only [val_main_v24_apply, val_main_v23_apply, val_main_v18_apply, val_main_v22_apply, val_main_v17_apply,
    val_main_v5_apply, val_main_v21_apply, val_main_v6_apply, val_main_v20_apply, val_main_v19_apply,
    val_main_cst_3_apply, val_main_v4_apply, val_main_v2_apply, val_main_v3_apply, val_main_cst_0_apply,
    val_main_v1_apply, val_main_cst_apply, val_main_v0_apply, e5, e6,
    Ideal.mulf_def, Ideal.addf_def, Ideal.subf_def, Ideal.hostUnary_sign_def, Ideal.ofBits_def]
  exact Cert.IntervalLaw.maskTerm_eq _ _ _ (h1 _) (h0 _) (h2 _)

/-- The reference's first result is the lower bound. -/
theorem lower_eq (h0 : Real' x0) (h1 : Real' x1) (h2 : Real' x2) :
    val_main_v27 (F := Ideal) x0 x1 x2 x3 = Cert.IntervalSpec.bound x0 x1 x2 x3 := by
  funext i
  obtain ⟨z, q, rfl⟩ : ∃ (z : Fin 1) (q : Fin 8192), i = ix2 z q := ⟨i 0, i 1, eq_ix2 i⟩
  have e27 : idx_main_v27 (ix2 z q) = ix1 q := funext fun a => Fin.ext (by match a with | ⟨0, _⟩ => rfl)
  have e15 : ∀ k : Fin 8192, idx_main_v15 (ix1 q) k = ix2 k q := fun k =>
    funext fun a => Fin.ext (by match a with | ⟨0, _⟩ => rfl | ⟨1, _⟩ => rfl)
  rw [val_main_v27_apply, e27, val_main_v16_apply, val_main_v15_apply]
  simp only [e15, lowerProd_apply x0 x1 x2 h0 h1 h2, val_main_cst_2_apply, Ideal.ofBits_def, Ideal.ofBits_zero_f32,
    zero_add, Ideal.addf_def]
  rfl

/-- The reference's second result is the upper bound. -/
theorem upper_eq (h0 : Real' x0) (h1 : Real' x1) (h2 : Real' x2) :
    val_main_v28 (F := Ideal) x0 x1 x2 x3 = Cert.IntervalSpec.bound x1 x0 x2 x3 := by
  funext i
  obtain ⟨z, q, rfl⟩ : ∃ (z : Fin 1) (q : Fin 8192), i = ix2 z q := ⟨i 0, i 1, eq_ix2 i⟩
  have e28 : idx_main_v28 (ix2 z q) = ix1 q := funext fun a => Fin.ext (by match a with | ⟨0, _⟩ => rfl)
  have e25 : ∀ k : Fin 8192, idx_main_v25 (ix1 q) k = ix2 k q := fun k =>
    funext fun a => Fin.ext (by match a with | ⟨0, _⟩ => rfl | ⟨1, _⟩ => rfl)
  rw [val_main_v28_apply, e28, val_main_v26_apply, val_main_v25_apply]
  simp only [e25, upperProd_apply x0 x1 x2 h0 h1 h2, val_main_cst_4_apply, Ideal.ofBits_def, Ideal.ofBits_zero_f32,
    zero_add, Ideal.addf_def]
  rfl

end Cert.ReferenceIdeal.RefValue

end
-- ==== Proof.LibFiniteEntries.lean ====
/-
  A finiteness precondition read back, one array at a time (a general lemma: nothing here depends on a program).

  A precondition "every entry of a is finite" compares the absolute value of each entry with plus infinity and
  takes the conjunction over the array.  At the exact values an extended real whose absolute value is below plus
  infinity is neither infinity, so it is a real number; hence, when the conjunction over the whole array is true,
  every entry of the array is a real number.  Any shape, any reduced axes as long as the result has one index.
-/
import Idealize.ShloMosaic.Lib.ReduceAll
import Idealize.ShloMosaic.Lib.ValueIdx
import Idealize.ShloMosaic.PureOps.Ideal

noncomputable section

namespace Cert.Lib.FiniteEntries

open Idealize.ShloMosaic

/-- The f32 pattern 0x7F800000 denotes plus infinity. -/
theorem ofBits_inf_f32 : Ideal.ofBits .f32 0x7F800000#32 = ⊤ := by simp [Ideal.ofBits, Ideal.ieee]

/-- An extended real whose absolute value is below plus infinity is a real number. -/
theorem real_of_abs_lt (x : EReal) (h : Ideal.cmp .olt (max x (-x)) (Ideal.ofBits .f32 0x7F800000#32) = 1#1) :
    ∃ r : ℝ, x = (r : EReal) := by
  rw [ofBits_inf_f32] at h
  induction x using EReal.rec with
  | bot => simp [Ideal.cmp] at h
  | coe r => exact ⟨r, rfl⟩
  | top => simp [Ideal.cmp] at h

/-- When the conjunction over a whole f32 array of "absolute value below plus infinity" is true, every entry of the
    array is a real number. -/
theorem reals_of_all_abs_lt {s u t : Shape} {axes : List (Fin s.rank)} [Subsingleton t.Idx] (a : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf a) (broadcastInDim s ![] hb (constant (F := Ideal) ⟨0, ![]⟩ .f32 0x7F800000#32))) init h hu j = 1#1) :
    ∀ i, ∃ r : ℝ, a i = (r : EReal) :=
  fun i => real_of_abs_lt _ (Host.reduce_andi_all _ _ _ _ _ e i)

end Cert.Lib.FiniteEntries

end
-- ==== Proof.Finite.lean ====
/-
  The precondition, read back: every entry of every input is a real number.

  The precondition takes, for each of the four arrays, the conjunction over its entries of "the absolute value is
  below plus infinity", and then the conjunction of the four.  Each array's conjunct says that its entries are real
  numbers.
-/
import proofs.«169212_j46265387713121_1_alg».proof.Pre_finite_inputs
import proofs.«169212_j46265387713121_1_alg».proof.Proof.Gen.Pre_finite_inputs
import proofs.«169212_j46265387713121_1_alg».proof.Proof.LibFiniteEntries
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic

instance : Subsingleton S_.Idx := ⟨fun a b => funext fun d => d.elim0⟩

/-- Under the precondition every entry of each of the four inputs is a real number. -/
theorem reals_of_pre (a0 a1 : FVec Ideal S1x8192 .f32) (a2 : FVec Ideal S8192x8192 .f32) (a3 : FVec Ideal S8192 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨Cert.Lib.FiniteEntries.reals_of_all_abs_lt a0 _ _ _ _ _ h0,
    Cert.Lib.FiniteEntries.reals_of_all_abs_lt a1 _ _ _ _ _ h1,
    Cert.Lib.FiniteEntries.reals_of_all_abs_lt a2 _ _ _ _ _ h2,
    Cert.Lib.FiniteEntries.reals_of_all_abs_lt a3 _ _ _ _ _ h3⟩

end Cert.Pre_finite_inputs.Decode

end
-- ==== Proof.lean ====
/-
  Interval bounds through a linear layer y = x W + b: a blocked accumulation against the masked formula.

  For l <= x <= u entrywise, the bounds on y are, at output column n,
      lower(n) = sum_k ( l(k) max(W(k,n), 0) - u(k) max(-W(k,n), 0) ) + b(n),
      upper(n) = sum_k ( u(k) max(W(k,n), 0) - l(k) max(-W(k,n), 0) ) + b(n).
  The kernel computes exactly these sums, 256 rows and 2048 columns at a time, accumulating over the 32 row blocks of
  each of the 4 column blocks.  The reference picks, per weight, l or u by the mask m = (1 + sign W) / 2 and sums
  (l m + u (1 - m)) W (and the same with l, u exchanged) down each column.  On the reals the two terms agree by
  the three cases of the sign of W(k,n); the inputs being finite, every entry is a real number, and on the
  extended reals a sum does not depend on the order or the grouping of its terms.  So both programs end with the
  same two arrays.  The idealization rewrote no operation, so there is nothing to preserve beyond the text itself.
-/
import proofs.«169212_j46265387713121_1_alg».proof.Defs
import proofs.«169212_j46265387713121_1_alg».proof.Proof.Gen.Kernel
import proofs.«169212_j46265387713121_1_alg».proof.Proof.Gen.Kernel.Frame
import proofs.«169212_j46265387713121_1_alg».proof.Proof.Gen.KernelIdeal
import proofs.«169212_j46265387713121_1_alg».proof.Proof.Gen.KernelIdeal.Frame
import proofs.«169212_j46265387713121_1_alg».proof.Proof.Gen.KernelIdeal.Value
import proofs.«169212_j46265387713121_1_alg».proof.Proof.Gen.ReferenceIdeal
import proofs.«169212_j46265387713121_1_alg».proof.Proof.Gen.ReferenceIdeal.Run
import proofs.«169212_j46265387713121_1_alg».proof.Proof.Gen.ReferenceIdeal.Read
import proofs.«169212_j46265387713121_1_alg».proof.Proof.Gen.Pre_finite_inputs
import proofs.«169212_j46265387713121_1_alg».proof.Proof.KernelValue
import proofs.«169212_j46265387713121_1_alg».proof.Proof.RefValue
import proofs.«169212_j46265387713121_1_alg».proof.Proof.Finite
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- At the exact values, from arguments that agree and are finite, the kernel ends with the two bounds of its
    arguments and so does the reference: its two results are the same two functions of arguments that are the same. -/
theorem algebraic : Cert.algebraic_KernelIdeal_ReferenceIdeal := by
  intro m ρ m' ρ' hpre hagree
  refine ⟨fun c => Cert.KernelIdeal.KernelValue.lowerOf m c, fun c => Cert.KernelIdeal.KernelValue.upperOf m c,
    Cert.KernelIdeal.KernelValue.run m ρ, ?_⟩
  refine (θ_run Cert.ReferenceIdeal.defs _ _).mono (fun _ h c => ?_) (Cert.ReferenceIdeal.Value.run (F := Ideal) m' ρ')
  obtain ⟨hr0, hr1, hr2, -⟩ := Cert.Pre_finite_inputs.Decode.reals_of_pre _ _ _ _ (hpre c)
  refine ⟨(h c).1.trans ?_, (h c).2.1.trans ?_, (h c).2.2⟩
  · rw [Cert.ReferenceIdeal.Read.val_main_v27_eq, (hagree c).1, (hagree c).2.1, (hagree c).2.2.1, (hagree c).2.2.2]
    exact Cert.ReferenceIdeal.RefValue.lower_eq _ _ _ _ hr0 hr1 hr2
  · rw [Cert.ReferenceIdeal.Read.val_main_v28_eq, (hagree c).1, (hagree c).2.1, (hagree c).2.2.1, (hagree c).2.2.2]
    exact Cert.ReferenceIdeal.RefValue.upper_eq _ _ _ _ hr0 hr1 hr2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
